-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) (main_arg2 : FVec F S8192x8192 .f32) (main_arg3 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x8192 : Shape := ⟨2, ![8192, 8192]⟩
abbrev S8192 : Shape := ⟨1, ![8192]⟩
abbrev S8192x1 : Shape := ⟨2, ![8192, 1]⟩
abbrev S8192x128 : Shape := ⟨2, ![8192, 128]⟩
abbrev S1x8192 : Shape := ⟨2, ![1, 8192]⟩
abbrev S1024x512 : Shape := ⟨2, ![1024, 512]⟩
abbrev S1024x128 : Shape := ⟨2, ![1024, 128]⟩
abbrev S1x512 : Shape := ⟨2, ![1, 512]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192, .i32⟩
  | .hbm, ⟨4, _⟩ => ⟨S8192x1, .i32⟩
  | .hbm, ⟨5, _⟩ => ⟨S8192x128, .i32⟩
  | .hbm, ⟨6, _⟩ => ⟨S1x8192, .i32⟩
  | .hbm, ⟨7, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x128, .i32⟩
  | .local _ .vmem, ⟨5, _⟩ => ⟨S1024x128, .i32⟩
  | .local _ .vmem, ⟨6, _⟩ => ⟨S1x512, .i32⟩
  | .local _ .vmem, ⟨7, _⟩ => ⟨S1x512, .i32⟩
  | .local _ .vmem, ⟨8, _⟩ => ⟨S1024x512, .f32⟩
  | .local _ .vmem, ⟨9, _⟩ => ⟨S1024x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192_S8192x1 : S8192.ShapeCasts S8192x1
  bcast_S8192x1_S8192x128_0_1 : S8192x1.BroadcastsInDim S8192x128 (![0, 1] : Fin 2 → Fin S8192x128.rank)
  shapeCasts_S8192_S1x8192 : S8192.ShapeCasts S1x8192
  inb_S1024x512_S1024x512_0_0 : ∀ a, (![0, 0] : Fin 2 → Nat) a + S1024x512.size a ≤ S1024x512.size a
  h_S1024x512 : 0 < S1024x512.numel
  inb_S1024x128_S1024x1_0_0 : ∀ a, (![0, 0] : Fin 2 → Nat) a + S1024x1.size a ≤ S1024x128.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .f32 = 32 ∨ (Rect.block (s := S8192x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x8192.size a
  hwx0_1 : ∀ i : grid0.Coords, EltTy.bits .f32 = 32 ∨ (Rect.block (s := S8192x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .i32 = 32 ∨ (Rect.block (s := S8192x128) S1024x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x8192.size a
  hwx0_4 : ∀ i : grid0.Coords, EltTy.bits .f32 = 32 ∨ (Rect.block (s := S8192x8192) S1024x512.size (cc0_transform_4 i) (hinb0_4 i)).WholeWords (EltTy.packing .f32)

variable [Facts₀]

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192, .i32⟩
  | .hbm, ⟨4, _⟩ => ⟨S_, .f32⟩
  | .hbm, ⟨5, _⟩ => ⟨S8192x8192, .f32⟩
  | .hbm, ⟨6, _⟩ => ⟨S8192x8192, .i1⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.HostArrays.lean ====
/-
  The two label arrays the kernel is launched with, read back to the label vector.

  Before the launch the label vector is laid out twice: as a table of 8192 rows and 128 lanes whose row `r` holds
  label `r` in every lane, and as a single row of 8192 entries whose entry `c` is label `c`. So the table at any lane
  of row `r` is label `r`, and the single row at column `c` is label `c`.
-/
import proofs.«114010_j23914377904869_1_alg».proof.Proof.Gen.KernelIdeal.Frame
import Idealize.ShloMosaic.Lib.Pipeline.Value
import Idealize.ShloMosaic.Lib.StableHlo.Run

noncomputable section

namespace Cert.KernelIdeal.HostArrays

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The label vector as launched. -/
abbrev labels (c : Dev nD) : S8192.Idx → Elt F .i32 := m ((c : Thread nD τ).loc main_arg3)

/-- The table is the label column, one lane wide, spread over 128 lanes. -/
theorem rowTable_eq (c : Dev nD) :
    (V m c main_v1 : S8192x128.Idx → Elt F .i32)
      = broadcastInDim S8192x128 ![0, 1] bcast_S8192x1_S8192x128_0_1
          (shapeCast S8192x1 (labels m c) shapeCasts_S8192_S8192x1) := by
  dsimp only [V, hostOps0]
  after_results
  rfl

/-- The single row is the label vector with a leading unit axis. -/
theorem colVector_eq (c : Dev nD) :
    (V m c main_v2 : S1x8192.Idx → Elt F .i32)
      = shapeCast S1x8192 (labels m c) shapeCasts_S8192_S1x8192 := by
  dsimp only [V, hostOps0]
  after_results
  rfl

/-- The table at row `r`, any lane, is label `r`. -/
theorem rowTable_apply (c : Dev nD) (i : S8192x128.Idx) (k : S8192.Idx) (hk : (k 0).val = (i 0).val) :
    V m c main_v1 i = labels m c k := by
  rw [rowTable_eq]
  have hi0 : (i 0).val < 8192 := (i 0).isLt
  refine (broadcastInDim_apply _ bcast_S8192x1_S8192x128_0_1 _ i
    (fun a => match a with | ⟨0, _⟩ => ⟨(i 0).val, hi0⟩ | ⟨1, _⟩ => ⟨0, Nat.one_pos⟩ : S8192x1.Idx)
    (fun a => match a with
      | ⟨0, _⟩ => by show (i 0).val = if (8192 : Nat) = 1 then 0 else (i 0).val; rw [if_neg (by decide)]
      | ⟨1, _⟩ => by show 0 = if (1 : Nat) = 1 then 0 else (i 1).val; rw [if_pos rfl])).trans ?_
  refine shapeCast_apply _ _ _ k ?_
  rw [Shape.rowMajor_val_one, Shape.rowMajor_val_two]
  show (k 0).val = (i 0).val * 1 + 0
  omega

/-- The single row at column `c` is label `c`. -/
theorem colVector_apply (c : Dev nD) (i : S1x8192.Idx) (k : S8192.Idx) (hk : (k 0).val = (i 1).val) :
    V m c main_v2 i = labels m c k := by
  rw [colVector_eq]
  refine shapeCast_apply _ _ _ k ?_
  rw [Shape.rowMajor_val_one, Shape.rowMajor_val_two]
  have hi0 : (i 0).val < 1 := (i 0).isLt
  show (k 0).val = (i 0).val * 8192 + (i 1).val
  omega

end Cert.KernelIdeal.HostArrays

end
-- ==== Proof.Spec.lean ====
/-
  What both programs compute, as ONE function of the argument arrays, index by index.

  For a distance `x` the Gaussian weight of unit width is `exp (0 - (x / 1) * (x / 1))`. The result at row `r` and
  column `c` is the product of three factors: the weight of the spatial distance `sd r c` where that distance is
  below 5 and zero elsewhere; 1 where rows `r` and `c` carry the same cluster label and the float nearest one tenth
  elsewhere; and the weight of the warping distance `dtw r c`. The two products are taken in that order.

  The reference spells the exponent `-(x / 1 * (x / 1))`, a negation, where the kernel subtracts from zero. On the
  extended reals `0 - y = -y` for every `y`, the two infinities included, so the two spellings are one function and
  no finiteness of the inputs is used.
-/
import Idealize.ShloMosaic.PureOps.Ideal
import Idealize.ShloMosaic.PureOps.Ideal.Laws
import Idealize.ShloMosaic.Lib.ValueIdx

noncomputable section

namespace Cert.DtwMask

open Idealize.ShloMosaic

/-- The square arrays' shape and the label vector's. -/
abbrev SNN : Shape := ⟨2, ![8192, 8192]⟩
abbrev SN : Shape := ⟨1, ![8192]⟩

/-- The label vector's index of an entry's row, and of its column. -/
abbrev rowOf (i : SNN.Idx) : SN.Idx := fun a => match a with | ⟨0, _⟩ => ⟨(i 0).val, (i 0).isLt⟩
abbrev colOf (i : SNN.Idx) : SN.Idx := fun a => match a with | ⟨0, _⟩ => ⟨(i 1).val, (i 1).isLt⟩

variable {F : FTy → Type} [FloatOps F]

/-- The Gaussian weight of a distance, unit width: `exp (0 - (x / 1) * (x / 1))`. -/
def gauss (x : F .f32) : F .f32 :=
  FloatOps.exp (FloatOps.subf (FloatOps.ofBits .f32 0x00000000#32)
    (FloatOps.mulf (FloatOps.divf x (FloatOps.ofBits .f32 0x3F800000#32)) (FloatOps.divf x (FloatOps.ofBits .f32 0x3F800000#32))))

/-- The masked product at one entry: the gated spatial weight, times the cluster factor, times the warping weight. -/
def G (sd dtw : SNN.Idx → Elt F .f32) (lab : SN.Idx → Elt F .i32) : SNN.Idx → Elt F .f32 := fun i =>
  FloatOps.mulf
    (FloatOps.mulf
      (Scalar.select (FloatOps.cmpf .olt (sd i) (FloatOps.ofBits .f32 0x40A00000#32)) (gauss (sd i)) (FloatOps.ofBits .f32 0x00000000#32))
      (Scalar.select (IntOp.cmpi .eq (lab (rowOf i)) (lab (colOf i))) (FloatOps.ofBits .f32 0x3F800000#32) (FloatOps.ofBits .f32 0x3DCCCCCD#32)))
    (gauss (dtw i))

/-- On the extended reals, negating the square of `x / 1` and then exponentiating is the Gaussian weight: `-y = 0 - y`. -/
theorem exp_neg_sq_eq_gauss (x : Ideal .f32) :
    FloatOps.hostUnary .exp (FloatOps.hostNegf (FloatOps.mulf (FloatOps.hostDivf x (FloatOps.ofBits .f32 0x3F800000#32)) (FloatOps.hostDivf x (FloatOps.ofBits .f32 0x3F800000#32))))
      = gauss (F := Ideal) x := by
  unfold gauss
  simp only [Ideal.hostUnary_exp_def, Ideal.hostNegf_def, Ideal.negf_def, Ideal.exp_def, Ideal.subf_def, Ideal.hostDivf_def,
    Ideal.divf_def, Ideal.mulf_def, Ideal.ofBits_def, Ideal.ofBits_zero_f32, zero_sub]

end Cert.DtwMask

end
-- ==== Proof.Blocks.lean ====
/-
  From what one grid point writes back to the whole result array.

  The grid has 8 x 16 points; point (p, q) owns the 1024 x 512 block of the result whose rows start at 1024 p and
  whose columns start at 512 q. At that point the two distance blocks are the same rectangle of their arrays; the
  label table's block holds rows 1024 p .. 1024 p + 1023, of which the body reads lane 0; and the label row's block
  holds columns 512 q .. 512 q + 511. So entry (a, b) of the block the body leaves is the masked product `G` at row
  1024 p + a and column 512 q + b of the arrays. The 128 blocks tile the array (row r lies in block row r / 1024,
  column c in block column c / 512), hence the array after the run is `G` of the arguments everywhere.
-/
import proofs.«114010_j23914377904869_1_alg».proof.Proof.ValueP
import proofs.«114010_j23914377904869_1_alg».proof.Proof.HostArrays
import proofs.«114010_j23914377904869_1_alg».proof.Proof.Spec

set_option maxRecDepth 16384

noncomputable section

namespace Cert.KernelIdeal.Blocks

open Cert.KernelIdeal Cert.KernelIdeal.Gen Cert.KernelIdeal.ValueP Cert.KernelIdeal.HostArrays Cert.DtwMask
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The zero offsets of a whole-block rectangle, however spelt. -/
theorem zero_off : (![0, 0] : Fin 2 → Nat) = fun _ => 0 := funext fun a => by fin_cases a <;> rfl

/-- The block index maps, decided over the 128 points: the distance blocks move with the result block; the label
    table's block follows the result's block row and stays at lane block 0; the label row's block stays at row 0 and
    follows the result's block column; the result's block row is below 8 and its block column below 16. -/
theorem index_maps : ∀ t : Fin cfg0.N,
      win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 15 :=
  (by decide +kernel : ∀ t : Fin grid0.N, _)

/-- Every block of the 8 x 16 tiling is some point's. -/
theorem index_onto : ∀ (p : Fin 8) (q : Fin 16), ∃ t : Fin cfg0.N, win0_4.index t = ![p.val, q.val] :=
  (by decide +kernel : ∀ (p : Fin 8) (q : Fin 16), ∃ t : Fin grid0.N, win0_4.index t = ![p.val, q.val])

/-- One entry of the block the body leaves, over arbitrary blocks: if at that entry the two distance blocks hold the
    arrays' values at `i`, lane 0 of the table block's row holds `i`'s row label, and the label row's block holds `i`'s
    column label, then the entry is the masked product at `i`. -/
theorem block_entry (x0 x1 : Vec F S1024x512 .f32) (x2 : Vec F S1024x128 .i32) (x3 : Vec F S1x512 .i32)
    (sd dtw : SNN.Idx → Elt F .f32) (lab : SN.Idx → Elt F .i32) (i : SNN.Idx) (j : S1024x512.Idx)
    (h0 : x0 j = sd i) (h1 : x1 j = dtw i)
    (h2 : ∀ y : S1024x128.Idx, (y 0).val = (j 0).val → (y 1).val = 0 → x2 y = lab (rowOf i))
    (h3 : ∀ y : S1x512.Idx, (y 1).val = (j 1).val → x3 y = lab (colOf i)) :
    out0_4 x0 x1 x2 x3 j = G sd dtw lab i := by
  unfold out0_4
  rw [canon4_eq]
  have hj : ∀ y : S1024x512.Idx, (y 0).val = (j 0).val → (y 1).val = (j 1).val → y = j := fun y e0 e1 =>
    funext fun a => Fin.ext (by match a with | ⟨0, _⟩ => exact e0 | ⟨1, _⟩ => exact e1)
  -- every read of a distance block is at the entry itself
  have a0 : View.ld x0 r0_0 (ix4_0 j) = sd i := by
    rw [View.ld_unit_zero (S := S1024x512) zero_off, hj (ix4_0 j) rfl rfl]; exact h0
  have a5 : View.ld x1 r0_0 (ix4_5 j) = dtw i := by
    rw [View.ld_unit_zero (S := S1024x512) zero_off, hj (ix4_5 j) rfl rfl]; exact h1
  have a3 : View.ld x2 r0_1 (ix4_3 j) = lab (rowOf i) := by
    show x2 (r0_1.emb (ix4_3 j)) = _
    refine h2 _ ?_ ?_
    · show 0 + 1 * (j 0).val = (j 0).val; omega
    · show 0 + 1 * 0 = 0; rfl
  have a4 : View.ld x3 r0_2 (ix4_4 j) = lab (colOf i) := by
    show x3 (r0_2.emb (ix4_4 j)) = _
    refine h3 _ ?_
    show 0 + 1 * (j 1).val = (j 1).val; omega
  unfold E4
  rw [a0, a3, a4, a5]
  rfl

/-- What point `t` writes back is block `t` of the masked product of the arrays as the launch finds them. -/
theorem flushed_eq (c : Dev nD) (t : Fin cfg0.N) :
    (dats m 0 c).flushed 4 t
      = ((cfg0.win 4).blk t).view.read (Elt F) (G (V m c main_arg1) (V m c main_arg2) (labels m c)) := by
  rw [flushed4]
  obtain ⟨e00, e01, e10, e11, e20, e21, e30, e31, b0, b1⟩ := index_maps t
  funext j
  show out0_4 (iblk m c 0 t) (iblk m c 1 t) (iblk m c 2 t) (iblk m c 3 t) j
    = G (V m c main_arg1) (V m c main_arg2) (labels m c) (((cfg0.win 4).blk t).view.emb j)
  have hj0 : (j 0).val < 1024 := (j 0).isLt
  have hj1 : (j 1).val < 512 := (j 1).isLt
  refine block_entry (iblk m c 0 t) (iblk m c 1 t) (iblk m c 2 t) (iblk m c 3 t)
    (V m c main_arg1) (V m c main_arg2) (labels m c) (((cfg0.win 4).blk t).view.emb j) j ?_ ?_ ?_ ?_
  · show V m c main_arg1 (((cfg0.win 0).blk t).view.emb j) = V m c main_arg1 (((cfg0.win 4).blk t).view.emb j)
    refine congrArg _ (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 512 + 1 * (j 1).val = win0_4.index t (1 : Fin 2) * 512 + 1 * (j 1).val; omega
  · show V m c main_arg2 (((cfg0.win 1).blk t).view.emb j) = V m c main_arg2 (((cfg0.win 4).blk t).view.emb j)
    refine congrArg _ (funext fun a => Fin.ext ?_)
    match a with
    | ⟨0, _⟩ => show win0_1.index t (0 : Fin 2) * 1024 + 1 * (j 0).val = win0_4.index t (0 : Fin 2) * 1024 + 1 * (j 0).val; omega
    | ⟨1, _⟩ => show win0_1.index t (1 : Fin 2) * 512 + 1 * (j 1).val = win0_4.index t (1 : Fin 2) * 512 + 1 * (j 1).val; omega
  · intro y hy0 hy1
    show V m c main_v1 (((cfg0.win 2).blk t).view.emb y) = _
    refine rowTable_apply m c _ _ ?_
    show win0_4.index t (0 : Fin 2) * 1024 + 1 * (j 0).val = win0_2.index t (0 : Fin 2) * 1024 + 1 * (y 0).val
    omega
  · intro y hy1
    show V m c main_v2 (((cfg0.win 3).blk t).view.emb y) = _
    refine colVector_apply m c _ _ ?_
    show win0_4.index t (1 : Fin 2) * 512 + 1 * (j 1).val = win0_3.index t (1 : Fin 2) * 512 + 1 * (y 1).val
    omega

/-- An entry of the array lies in point `t`'s block iff each coordinate is in the block's range on its axis. -/
theorem mem_blk (t : Fin cfg0.N) (i : S8192x8192.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v3).slice (win0_4.rect t)).set ↔ _
  rw [View.set_slice_whole, Rect.mem_set_unit]
  exact Iff.rfl

/-- The blocks tile the array: entry (r, c) lies in the block of block row r / 1024 and block column c / 512. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := index_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The result array after the run is the masked product of the argument arrays. -/
theorem final (c : Dev nD) :
    (dats m 0 c).arrAt 4 cfg0.N
      = G (m ((c : Thread nD τ).loc main_arg1)) (m ((c : Thread nD τ).loc main_arg2)) (m ((c : Thread nD τ).loc main_arg3)) := by
  rw [(dats m 0 c).arrAt_eq_of_cover 4 (G (V m c main_arg1) (V m c main_arg2) (labels m c)) (fun t _ => flushed_eq m c t) covered,
    V_main_arg1 m c, V_main_arg2 m c]

/-- The kernel's run: it ends with the result array at the masked product of the arguments, the arguments unchanged. -/
theorem run : θ_run defs (onTc (τ := τ) (main (F := F))) ⟨m, fun _ => 0, ρ⟩ fun r => ∀ c : Dev nD,
      r.2.mem ((c : Thread nD τ).loc main_v3)
        = G (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.RefValue.lean ====
/-
  The reference's result is the masked product `G` of its arguments, at the extended reals.

  Each of the reference's operations acts entry by entry; the two label broadcasts read the label vector at an
  entry's row and at its column. Reading the last stage at an entry therefore gives the same three factors as `G`,
  with each exponent spelt as a negation; that spelling is the Gaussian weight (`exp_neg_sq_eq_gauss`).
-/
import proofs.«114010_j23914377904869_1_alg».proof.Proof.Gen.ReferenceIdeal.Read
import proofs.«114010_j23914377904869_1_alg».proof.Proof.Spec

noncomputable section

namespace Cert.ReferenceIdeal.RefValue

open Cert.ReferenceIdeal Cert.ReferenceIdeal.Read Idealize.ShloMosaic Cert.DtwMask

/-- Through the two broadcasts, an entry's row label is read at the entry's row. -/
theorem row_idx (i : S8192x8192.Idx) : idx_main_v9 (idx_main_v11 i) = rowOf i :=
  funext fun a => match a with | ⟨0, _⟩ => rfl

/-- Through the two broadcasts, an entry's column label is read at the entry's column. -/
theorem col_idx (i : S8192x8192.Idx) : idx_main_v10 (idx_main_v12 i) = colOf i :=
  funext fun a => match a with | ⟨0, _⟩ => rfl

/-- The reference's last stage, entry by entry, is `G` of the two distance arrays and the labels. -/
theorem stage_eq_G (x1 x2 : (⟨S8192x8192, .f32⟩ : BufTy).Contents (Elt Ideal)) (x3 : (⟨S8192, .i32⟩ : BufTy).Contents (Elt Ideal)) :
    val_main_v21 (F := Ideal) x1 x2 x3 = G (F := Ideal) x1 x2 x3 := by
  funext i
  simp only [val_main_v21_apply, val_main_v20_apply, val_main_v8_apply, val_main_v1_apply, val_main_v0_apply, val_main_cst_apply,
    val_main_v6_apply, val_main_v5_apply, val_main_v4_apply, val_main_v3_apply, val_main_v2_apply, val_main_cst_0_apply,
    val_main_v7_apply, val_main_cst_1_apply, val_main_v14_apply, val_main_v13_apply, val_main_v11_apply, val_main_v9_apply,
    val_main_v12_apply, val_main_v10_apply, val_main_call1_v0_apply, val_main_cst_2_apply, val_main_call1_v1_apply,
    val_main_cst_3_apply, val_main_v19_apply, val_main_v18_apply, val_main_v17_apply, val_main_v16_apply, val_main_v15_apply,
    val_main_cst_4_apply, row_idx, col_idx, exp_neg_sq_eq_gauss]
  rfl

end Cert.ReferenceIdeal.RefValue

end
-- ==== Proof.lean ====
/-
  The masked Gaussian product: a tiled elementwise kernel against its array-level reference, equal over the
  extended reals.

  Both programs take a spatial distance array `sd`, a warping distance array `dtw` (8192 x 8192 each) and a vector of
  8192 cluster labels, and return, at row `r` and column `c`,
      (exp (-(sd r c)^2) where sd r c < 5, else 0) * (1 where label r = label c, else one tenth) * exp (-(dtw r c)^2),
  the squares taken of the distance divided by the unit width 1. A fourth argument is never read by either.

  The kernel walks an 8 x 16 grid of 1024 x 512 blocks; at each point it reads the matching blocks of `sd` and `dtw`,
  lane 0 of the matching rows of a label table (label `r` repeated along row `r`), and the matching columns of the
  labels laid out as one row, and writes the product block. The blocks tile the result, so the array the kernel
  leaves is the product at every entry (Proof/Blocks.lean, over Proof/HostArrays.lean for the two label layouts).
  The reference applies the same operations to whole arrays; its exponent is written as a negation where the
  kernel subtracts from zero, and `0 - y = -y` on the extended reals for every `y`, so the two are the same function
  of the arguments (Proof/Spec.lean, Proof/RefValue.lean). No finiteness of the inputs is used.

  The kernel's idealization rewrote nothing, so there is nothing to preserve. The three programs' termination and
  the constancy of their arguments come from the frame runs of the two kernels and from the reference's run.
-/
import proofs.«114010_j23914377904869_1_alg».proof.Defs
import proofs.«114010_j23914377904869_1_alg».proof.Proof.Gen.Kernel
import proofs.«114010_j23914377904869_1_alg».proof.Proof.Gen.Kernel.Skeleton
import proofs.«114010_j23914377904869_1_alg».proof.Proof.Gen.Kernel.Launch
import proofs.«114010_j23914377904869_1_alg».proof.Proof.Gen.Kernel.Points
import proofs.«114010_j23914377904869_1_alg».proof.Proof.Gen.Kernel.Frame
import proofs.«114010_j23914377904869_1_alg».proof.Proof.Gen.KernelIdeal
import proofs.«114010_j23914377904869_1_alg».proof.Proof.Gen.KernelIdeal.Skeleton
import proofs.«114010_j23914377904869_1_alg».proof.Proof.Gen.KernelIdeal.Launch
import proofs.«114010_j23914377904869_1_alg».proof.Proof.Gen.KernelIdeal.Points
import proofs.«114010_j23914377904869_1_alg».proof.Proof.Gen.KernelIdeal.Frame
import proofs.«114010_j23914377904869_1_alg».proof.Proof.Gen.ReferenceIdeal
import proofs.«114010_j23914377904869_1_alg».proof.Proof.Gen.Pre_finite_inputs
import proofs.«114010_j23914377904869_1_alg».proof.Proof.ValueP
import proofs.«114010_j23914377904869_1_alg».proof.Proof.Gen.ReferenceIdeal.Run
import proofs.«114010_j23914377904869_1_alg».proof.Proof.Gen.ReferenceIdeal.Read
import proofs.«114010_j23914377904869_1_alg».proof.Proof.Blocks
import proofs.«114010_j23914377904869_1_alg».proof.Proof.RefValue
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel [Cert.Kernel.Facts] [Cert.Pre_finite_inputs.Facts] : Cert.frame_Kernel :=
  fun m ρ _ => Cert.Kernel.Gen.frame m ρ

/-- So does the kernel read at the extended reals. -/
theorem frame_kernelIdeal [Cert.KernelIdeal.Facts] [Cert.Pre_finite_inputs.Facts] : Cert.frame_KernelIdeal :=
  fun m ρ _ => Cert.KernelIdeal.Gen.frame m ρ

/-- And the reference: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the masked product of the kernel's arguments:
    the kernel by its blocks, the reference by its stages read entry by entry. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.ReferenceIdeal.RefValue.stage_eq_G,
    (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
